-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S50x128 : Shape := ⟨2, ![50, 128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S50x128 : S_.BroadcastsInDim S50x128 (![] : Fin 0 → Fin S50x128.rank)
  reducesTo_S50x128_S_d0_1 : S50x128.ReducesTo [0, 1] S_

variable [Facts]

def fn_part1 {F : FTy → Type} [FloatOps F] (main_arg4 : FVec F S50x128 .f32) (main_arg5 : FVec F S50x128 .f32) (main_v13 : IVec S_ 1) (main_v16 : IVec S50x128 1) : IVec S_ 1 :=
  let main_c_5 : IVec S_ 1 := constantI S_ 1 1#1
  let main_v17 : IVec S_ 1 := (fun x v => Host.reduce IntOp.andi x v reducesTo_S50x128_S_d0_1 h_S_) main_v16 main_c_5
  let main_v18 : IVec S_ 1 := andi main_v13 main_v17
  let main_v19 : FVec F S50x128 .f32 := Host.absf main_arg4
  let main_cst_6 : FVec F S_ .f32 := constant S_ .f32 0x7F800000#32
  let main_v20 : FVec F S50x128 .f32 := broadcastInDim S50x128 ![] bcast_S_S50x128 main_cst_6
  let main_v21 : IVec S50x128 1 := cmpf .olt main_v19 main_v20
  let main_c_7 : IVec S_ 1 := constantI S_ 1 1#1
  let main_v22 : IVec S_ 1 := (fun x v => Host.reduce IntOp.andi x v reducesTo_S50x128_S_d0_1 h_S_) main_v21 main_c_7
  let main_v23 : IVec S_ 1 := andi main_v18 main_v22
  let main_v24 : FVec F S50x128 .f32 := Host.absf main_arg5
  let main_cst_8 : FVec F S_ .f32 := constant S_ .f32 0x7F800000#32
  let main_v25 : FVec F S50x128 .f32 := broadcastInDim S50x128 ![] bcast_S_S50x128 main_cst_8
  let main_v26 : IVec S50x128 1 := cmpf .olt main_v24 main_v25
  let main_c_9 : IVec S_ 1 := constantI S_ 1 1#1
  let main_v27 : IVec S_ 1 := (fun x v => Host.reduce IntOp.andi x v reducesTo_S50x128_S_d0_1 h_S_) main_v26 main_c_9
  let main_v28 : IVec S_ 1 := andi main_v23 main_v27
  main_v28

def fn {F : FTy → Type} [FloatOps F] (main_arg0 : FVec F S1000000x128 .f32) (main_arg1 : FVec F S1000000 .f32) (main_arg2 : FVec F S50x128 .f32) (main_arg3 : FVec F S50x128 .f32) (main_arg4 : FVec F S50x128 .f32) (main_arg5 : FVec F S50x128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S1000000 .f32 := Host.absf main_arg1
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S50x128 .f32 := Host.absf main_arg2
  let main_cst_2 : FVec F S_ .f32 := constant S_ .f32 0x7F800000#32
  let main_v10 : FVec F S50x128 .f32 := broadcastInDim S50x128 ![] bcast_S_S50x128 main_cst_2
  let main_v11 : IVec S50x128 1 := cmpf .olt main_v9 main_v10
  let main_c_3 : IVec S_ 1 := constantI S_ 1 1#1
  let main_v12 : IVec S_ 1 := (fun x v => Host.reduce IntOp.andi x v reducesTo_S50x128_S_d0_1 h_S_) main_v11 main_c_3
  let main_v13 : IVec S_ 1 := andi main_v8 main_v12
  let main_v14 : FVec F S50x128 .f32 := Host.absf main_arg3
  let main_cst_4 : FVec F S_ .f32 := constant S_ .f32 0x7F800000#32
  let main_v15 : FVec F S50x128 .f32 := broadcastInDim S50x128 ![] bcast_S_S50x128 main_cst_4
  let main_v16 : IVec S50x128 1 := cmpf .olt main_v14 main_v15
  fn_part1 (F := F) main_arg4 main_arg5 main_v13 main_v16
-- ==== Kernel.lean ====
abbrev S1000000x128 : Shape := ⟨2, ![1000000, 128]⟩
abbrev S1000000 : Shape := ⟨1, ![1000000]⟩
abbrev S50x128 : Shape := ⟨2, ![50, 128]⟩
abbrev S1000000x1 : Shape := ⟨2, ![1000000, 1]⟩
abbrev S4000x128 : Shape := ⟨2, ![4000, 128]⟩
abbrev S4000x1 : Shape := ⟨2, ![4000, 1]⟩
abbrev S4000x50 : Shape := ⟨2, ![4000, 50]⟩

abbrev nBuf : Space → Nat
  | .hbm => 8
  | .vmem => 10
  | .smem => 0
  | _ => 0

abbrev bufTy : (tb : Table) → Fin (tcTables nBuf tb) → BufTy
  | .hbm, ⟨0, _⟩ => ⟨S1000000x128, .f32⟩
  | .hbm, ⟨1, _⟩ => ⟨S1000000, .f32⟩
  | .hbm, ⟨2, _⟩ => ⟨S50x128, .f32⟩
  | .hbm, ⟨3, _⟩ => ⟨S50x128, .f32⟩
  | .hbm, ⟨4, _⟩ => ⟨S50x128, .f32⟩
  | .hbm, ⟨5, _⟩ => ⟨S50x128, .f32⟩
  | .hbm, ⟨6, _⟩ => ⟨S1000000x1, .f32⟩
  | .hbm, ⟨7, _⟩ => ⟨S1000000x128, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S50x128, .f32⟩
  | .local _ .vmem, ⟨5, _⟩ => ⟨S50x128, .f32⟩
  | .local _ .vmem, ⟨6, _⟩ => ⟨S50x128, .f32⟩
  | .local _ .vmem, ⟨7, _⟩ => ⟨S50x128, .f32⟩
  | .local _ .vmem, ⟨8, _⟩ => ⟨S4000x128, .f32⟩
  | .local _ .vmem, ⟨9, _⟩ => ⟨S4000x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S50x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S50x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S50x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1000000_S1000000x1 : S1000000.ShapeCasts S1000000x1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x50_d1_w32 : S4000x50.Iotas .tc 32 [1]
  broadcasts_S4000x1_S4000x50 : S4000x1.Broadcasts S4000x50
  natLt_1_32 : 1 < 32
  inb_S50x128_S50x128_0_0 : ∀ a, (![0, 0] : Fin 2 → Nat) a + S50x128.size a ≤ S50x128.size a
  h_S50x128 : 0 < S50x128.numel
  inb_S4000x128_S4000x128_0_0 : ∀ a, (![0, 0] : Fin 2 → Nat) a + S4000x128.size a ≤ S4000x128.size a
  h_S4000x128 : 0 < S4000x128.numel
  dot_S4000x50_S50x128_S4000x128_1_0_0_1_n_n_wf : DotDims.WF S4000x50 S50x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S1000000x128.size a
  hwx0_0 : ∀ i : grid0.Coords, EltTy.bits .f32 = 32 ∨ (Rect.block (s := S1000000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S1000000x1.size a
  hwx0_1 : ∀ i : grid0.Coords, EltTy.bits .f32 = 32 ∨ (Rect.block (s := S1000000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50x128.size a ≤ S50x128.size a
  hwx0_2 : ∀ i : grid0.Coords, EltTy.bits .f32 = 32 ∨ (Rect.block (s := S50x128) S50x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50x128.size a ≤ S50x128.size a
  hwx0_3 : ∀ i : grid0.Coords, EltTy.bits .f32 = 32 ∨ (Rect.block (s := S50x128) S50x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50x128.size a ≤ S50x128.size a
  hwx0_4 : ∀ i : grid0.Coords, EltTy.bits .f32 = 32 ∨ (Rect.block (s := S50x128) S50x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S50x128.size a ≤ S50x128.size a
  hwx0_5 : ∀ i : grid0.Coords, EltTy.bits .f32 = 32 ∨ (Rect.block (s := S50x128) S50x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S1000000x128.size a
  hwx0_6 : ∀ i : grid0.Coords, EltTy.bits .f32 = 32 ∨ (Rect.block (s := S1000000x128) S4000x128.size (cc0_transform_6 i) (hinb0_6 i)).WholeWords (EltTy.packing .f32)

variable [Facts₀]

def dot_S4000x50_S50x128_S4000x128_1_0_0_1_n_n : DotDims S4000x50 S50x128 S4000x128 where
  lhsContracting := [1]
  rhsContracting := [0]
  lhsNonContracting := [0]
  rhsNonContracting := [1]
  lhsBatch := []
  rhsBatch := []
  wf := dot_S4000x50_S50x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S50x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S50x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S50x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S50x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S1000000 : Shape := ⟨1, ![1000000]⟩
abbrev S50x128 : Shape := ⟨2, ![50, 128]⟩
abbrev S_ : Shape := ⟨0, ![]⟩
abbrev S1000000x1 : Shape := ⟨2, ![1000000, 1]⟩

abbrev nBuf : Space → Nat
  | .hbm => 91
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000, .f32⟩
  | .hbm, ⟨2, _⟩ => ⟨S50x128, .f32⟩
  | .hbm, ⟨3, _⟩ => ⟨S50x128, .f32⟩
  | .hbm, ⟨4, _⟩ => ⟨S50x128, .f32⟩
  | .hbm, ⟨5, _⟩ => ⟨S50x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1000000, .f32⟩
  | .hbm, ⟨10, _⟩ => ⟨S1000000, .f32⟩
  | .hbm, ⟨11, _⟩ => ⟨S_, .f32⟩
  | .hbm, ⟨12, _⟩ => ⟨S1000000, .f32⟩
  | .hbm, ⟨13, _⟩ => ⟨S1000000, .f32⟩
  | .hbm, ⟨14, _⟩ => ⟨S_, .f32⟩
  | .hbm, ⟨15, _⟩ => ⟨S1000000, .f32⟩
  | .hbm, ⟨16, _⟩ => ⟨S1000000, .f32⟩
  | .hbm, ⟨17, _⟩ => ⟨S1000000, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S_, .i32⟩
  | .hbm, ⟨30, _⟩ => ⟨S1000000, .i32⟩
  | .hbm, ⟨31, _⟩ => ⟨S1000000, .i1⟩
  | .hbm, ⟨32, _⟩ => ⟨S_, .i32⟩
  | .hbm, ⟨33, _⟩ => ⟨S1000000, .i32⟩
  | .hbm, ⟨34, _⟩ => ⟨S1000000, .i32⟩
  | .hbm, ⟨35, _⟩ => ⟨S1000000, .i32⟩
  | .hbm, ⟨36, _⟩ => ⟨S1000000x1, .i32⟩
  | .hbm, ⟨37, _⟩ => ⟨S1000000x128, .f32⟩
  | .hbm, ⟨38, _⟩ => ⟨S_, .i32⟩
  | .hbm, ⟨39, _⟩ => ⟨S1000000, .i32⟩
  | .hbm, ⟨40, _⟩ => ⟨S1000000, .i1⟩
  | .hbm, ⟨41, _⟩ => ⟨S_, .i32⟩
  | .hbm, ⟨42, _⟩ => ⟨S1000000, .i32⟩
  | .hbm, ⟨43, _⟩ => ⟨S1000000, .i32⟩
  | .hbm, ⟨44, _⟩ => ⟨S1000000, .i32⟩
  | .hbm, ⟨45, _⟩ => ⟨S1000000x1, .i32⟩
  | .hbm, ⟨46, _⟩ => ⟨S1000000x128, .f32⟩
  | .hbm, ⟨47, _⟩ => ⟨S_, .i32⟩
  | .hbm, ⟨48, _⟩ => ⟨S1000000, .i32⟩
  | .hbm, ⟨49, _⟩ => ⟨S1000000, .i1⟩
  | .hbm, ⟨50, _⟩ => ⟨S_, .i32⟩
  | .hbm, ⟨51, _⟩ => ⟨S1000000, .i32⟩
  | .hbm, ⟨52, _⟩ => ⟨S1000000, .i32⟩
  | .hbm, ⟨53, _⟩ => ⟨S1000000, .i32⟩
  | .hbm, ⟨54, _⟩ => ⟨S1000000x1, .i32⟩
  | .hbm, ⟨55, _⟩ => ⟨S1000000x128, .f32⟩
  | .hbm, ⟨56, _⟩ => ⟨S_, .i32⟩
  | .hbm, ⟨57, _⟩ => ⟨S1000000, .i32⟩
  | .hbm, ⟨58, _⟩ => ⟨S1000000, .i1⟩
  | .hbm, ⟨59, _⟩ => ⟨S_, .i32⟩
  | .hbm, ⟨60, _⟩ => ⟨S1000000, .i32⟩
  | .hbm, ⟨61, _⟩ => ⟨S1000000, .i32⟩
  | .hbm, ⟨62, _⟩ => ⟨S1000000, .i32⟩
  | .hbm, ⟨63, _⟩ => ⟨S1000000x1, .i32⟩
  | .hbm, ⟨64, _⟩ => ⟨S1000000x128, .f32⟩
  | .hbm, ⟨65, _⟩ => ⟨S_, .f32⟩
  | .hbm, ⟨66, _⟩ => ⟨S1000000x128, .f32⟩
  | .hbm, ⟨67, _⟩ => ⟨S1000000x128, .f32⟩
  | .hbm, ⟨68, _⟩ => ⟨S_, .f32⟩
  | .hbm, ⟨69, _⟩ => ⟨S1000000x128, .f32⟩
  | .hbm, ⟨70, _⟩ => ⟨S1000000x128, .f32⟩
  | .hbm, ⟨71, _⟩ => ⟨S_, .f32⟩
  | .hbm, ⟨72, _⟩ => ⟨S1000000x128, .f32⟩
  | .hbm, ⟨73, _⟩ => ⟨S1000000x128, .f32⟩
  | .hbm, ⟨74, _⟩ => ⟨S1000000x128, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S1000000x128, .f32⟩
  | .hbm, ⟨79, _⟩ => ⟨S1000000x128, .f32⟩
  | .hbm, ⟨80, _⟩ => ⟨S_, .f32⟩
  | .hbm, ⟨81, _⟩ => ⟨S1000000x128, .f32⟩
  | .hbm, ⟨82, _⟩ => ⟨S1000000x128, .f32⟩
  | .hbm, ⟨83, _⟩ => ⟨S1000000x128, .f32⟩
  | .hbm, ⟨84, _⟩ => ⟨S1000000x128, .f32⟩
  | .hbm, ⟨85, _⟩ => ⟨S1000000x128, .f32⟩
  | .hbm, ⟨86, _⟩ => ⟨S1000000x128, .f32⟩
  | .hbm, ⟨87, _⟩ => ⟨S_, .f32⟩
  | .hbm, ⟨88, _⟩ => ⟨S1000000x128, .f32⟩
  | .hbm, ⟨89, _⟩ => ⟨S1000000x128, .i1⟩
  | .hbm, ⟨90, _⟩ => ⟨S1000000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_cst_1 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_c_2 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v4 : Ref sig .tc := ⟨.hbm, 25, rfl⟩
abbrev main_c_3 : Ref sig .tc := ⟨.hbm, 26, rfl⟩
abbrev main_v5 : Ref sig .tc := ⟨.hbm, 27, rfl⟩
abbrev main_v6 : Ref sig .tc := ⟨.hbm, 28, rfl⟩
abbrev main_c_4 : Ref sig .tc := ⟨.hbm, 29, rfl⟩
abbrev main_v7 : Ref sig .tc := ⟨.hbm, 30, rfl⟩
abbrev main_v8 : Ref sig .tc := ⟨.hbm, 31, rfl⟩
abbrev main_c_5 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_6 : Ref sig .tc := ⟨.hbm, 38, rfl⟩
abbrev main_v14 : Ref sig .tc := ⟨.hbm, 39, rfl⟩
abbrev main_v15 : Ref sig .tc := ⟨.hbm, 40, rfl⟩
abbrev main_c_7 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_8 : Ref sig .tc := ⟨.hbm, 47, rfl⟩
abbrev main_v21 : Ref sig .tc := ⟨.hbm, 48, rfl⟩
abbrev main_v22 : Ref sig .tc := ⟨.hbm, 49, rfl⟩
abbrev main_c_9 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_10 : Ref sig .tc := ⟨.hbm, 56, rfl⟩
abbrev main_v28 : Ref sig .tc := ⟨.hbm, 57, rfl⟩
abbrev main_v29 : Ref sig .tc := ⟨.hbm, 58, rfl⟩
abbrev main_c_11 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_12 : Ref sig .tc := ⟨.hbm, 65, rfl⟩
abbrev main_v35 : Ref sig .tc := ⟨.hbm, 66, rfl⟩
abbrev main_v36 : Ref sig .tc := ⟨.hbm, 67, rfl⟩
abbrev main_cst_13 : Ref sig .tc := ⟨.hbm, 68, rfl⟩
abbrev main_v37 : Ref sig .tc := ⟨.hbm, 69, rfl⟩
abbrev main_v38 : Ref sig .tc := ⟨.hbm, 70, rfl⟩
abbrev main_cst_14 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_15 : Ref sig .tc := ⟨.hbm, 75, rfl⟩
abbrev main_cst_16 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst_17 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x128 : S_.BroadcastsInDim S1000000x128 (![] : Fin 0 → Fin S1000000x128.rank)
  gather_S50x128_S1000000x1_S1000000x128_1_0_n_n_0_1_1128_wf : GatherDims.WF S50x128 S1000000x1 S1000000x128 [1] [0] [] [0] [] 1 ![1, 128]

variable [Facts₀]

def gather_S50x128_S1000000x1_S1000000x128_1_0_n_n_0_1_1128 : GatherDims S50x128 S1000000x1 S1000000x128 where
  offsetDims := [1]
  collapsedSliceDims := [0]
  operandBatchingDims := []
  startIndicesBatchingDims := []
  startIndexMap := [0]
  indexVectorDim := 1
  sliceSizes := ![1, 128]
  wf := gather_S50x128_S1000000x1_S1000000x128_1_0_n_n_0_1_1128_wf

class Facts : Prop extends Facts₀ where

variable [Facts]
-- ==== Proof.Bucket.lean ====
/-
  THE BUCKET OF A LABEL. A label is clipped to [0, 1], scaled by 50, converted to a signed 32-bit word and clamped to
  [0, 49]: the word names one of the 50 rows of a statistics table. Read as an integer the word lies in [0, 49], so it is
  the word of a row number `bucket l : Fin 50`. Three readings of that row follow. (1) The one-hot weight of row `k` —
  the comparison of `k`'s word with the bucket word, widened and converted to a float — is the extended real 1 at
  `k = bucket l` and 0 elsewhere, so a sum over the 50 rows weighted by it keeps exactly the term of row `bucket l`
  (0 · x = 0 and 1 · x = x for every extended real x, the infinities included). (2) Subtracting the zero word and wrapping
  a negative word by 50 leaves the bucket word as it is, the word being non-negative. (3) A start index equal to the
  bucket word, read signed and clamped into [0, 49], is `bucket l`.
-/
import Idealize.ShloMosaic.PureOps.Ideal
import Idealize.ShloMosaic.Lib.ValueIdx
import Idealize.ShloMosaic.Lib.StableHlo.Predicate

open scoped BigOperators

noncomputable section

namespace Cert.Calibrate

open Idealize.ShloMosaic Idealize.ShloMosaic.ValueIdx

/-! ## Signed maximum and minimum of words, read as integers -/

theorem toInt_maxsi (x y : BitVec 32) : (IntOp.maxsi x y).toInt = max x.toInt y.toInt := by
  unfold IntOp.maxsi
  by_cases h : y.slt x = true
  · rw [if_pos h]
    have h' : y.toInt < x.toInt := by simpa [BitVec.slt] using h
    omega
  · rw [if_neg h]
    have h' : ¬ y.toInt < x.toInt := by simpa [BitVec.slt] using h
    omega

theorem toInt_minsi (x y : BitVec 32) : (IntOp.minsi x y).toInt = min x.toInt y.toInt := by
  unfold IntOp.minsi
  by_cases h : x.slt y = true
  · rw [if_pos h]
    have h' : x.toInt < y.toInt := by simpa [BitVec.slt] using h
    omega
  · rw [if_neg h]
    have h' : ¬ x.toInt < y.toInt := by simpa [BitVec.slt] using h
    omega

/-! ## The bucket word and the row it names -/

/-- The bucket word of a label `l`: min(1, max(0, l)) · 50 converted to a signed word, then clamped to [0, 49]. -/
def bucketWord (l : Ideal .f32) : BitVec 32 :=
  IntOp.minsi 49#32 (IntOp.maxsi 0#32 (FloatOps.fptosi (F := Ideal) (φ := .f32) 32
    (FloatOps.mulf (FloatOps.minimumf (FloatOps.ofBits .f32 0x3F800000#32)
      (FloatOps.maximumf (FloatOps.ofBits .f32 0x00000000#32) l)) (FloatOps.ofBits .f32 0x42480000#32))))

/-- Whatever the conversion gives, the clamped word reads as an integer in [0, 49]. -/
theorem bucketWord_range (l : Ideal .f32) : 0 ≤ (bucketWord l).toInt ∧ (bucketWord l).toInt ≤ 49 := by
  unfold bucketWord
  rw [toInt_minsi, toInt_maxsi]
  have h49 : (49#32 : BitVec 32).toInt = 49 := by decide
  have h0 : (0#32 : BitVec 32).toInt = 0 := by decide
  rw [h49, h0]
  constructor <;> omega

/-- The row of the 50-row tables a label selects. -/
def bucket (l : Ideal .f32) : Fin 50 :=
  ⟨(bucketWord l).toInt.toNat, by have := bucketWord_range l; omega⟩

theorem bucketWord_toInt (l : Ideal .f32) : (bucketWord l).toInt = ((bucket l).val : Int) := by
  show _ = (((bucketWord l).toInt.toNat : Nat) : Int)
  rw [Int.toNat_of_nonneg (bucketWord_range l).1]

/-- The bucket word is the word of its row number. -/
theorem bucketWord_eq (l : Ideal .f32) : bucketWord l = BitVec.ofNat 32 (bucket l).val := by
  apply BitVec.eq_of_toInt_eq
  rw [bucketWord_toInt, BitVec.toInt_eq_toNat_cond, BitVec.toNat_ofNat]
  have hlt := (bucket l).isLt
  have h : (bucket l).val % 2 ^ 32 = (bucket l).val := Nat.mod_eq_of_lt (by omega)
  rw [h, if_pos (by omega)]

/-- Words of two row numbers below 50 are equal only if the row numbers are. -/
theorem ofNat_row_inj (k k' : Fin 50) (h : BitVec.ofNat 32 k.val = BitVec.ofNat 32 k'.val) : k = k' := by
  have h' := congrArg BitVec.toNat h
  simp only [BitVec.toNat_ofNat] at h'
  apply Fin.ext
  have := k.isLt
  have := k'.isLt
  omega

/-! ## The one-hot weights -/

/-- The weight the one-hot selector gives row `k` for label `l`: the equality test of `k`'s word with the bucket word,
    widened to 32 bits and converted to a float. -/
def hot (k : Fin 50) (l : Ideal .f32) : Ideal .f32 :=
  FloatOps.sitofp (F := Ideal) .f32 ((IntOp.cmpi .eq (BitVec.ofNat 32 k.val) (bucketWord l)).setWidth 32)

theorem hot_eq (k : Fin 50) (l : Ideal .f32) : hot k l = if k = bucket l then 1 else 0 := by
  unfold hot
  rw [bucketWord_eq]
  by_cases h : k = bucket l
  · rw [if_pos h, h]
    have e : IntOp.cmpi .eq (BitVec.ofNat 32 (bucket l).val) (BitVec.ofNat 32 (bucket l).val) = 1#1 :=
      StableHlo.Predicate.cmpi_eq_iff.mpr rfl
    rw [e]
    show (((((1#1 : BitVec 1).setWidth 32).toInt : ℤ) : ℝ) : EReal) = 1
    rw [show ((1#1 : BitVec 1).setWidth 32).toInt = 1 by decide]
    norm_num
  · rw [if_neg h]
    have e : IntOp.cmpi .eq (BitVec.ofNat 32 k.val) (BitVec.ofNat 32 (bucket l).val) = 0#1 := by
      unfold IntOp.cmpi
      have hne : (BitVec.ofNat 32 k.val == BitVec.ofNat 32 (bucket l).val) = false := by
        rw [beq_eq_false_iff_ne]
        exact fun hh => h (ofNat_row_inj _ _ hh)
      simp only [hne]
      rfl
    rw [e]
    show (((((0#1 : BitVec 1).setWidth 32).toInt : ℤ) : ℝ) : EReal) = 0
    rw [show ((0#1 : BitVec 1).setWidth 32).toInt = 0 by decide]
    norm_num

/-- THE SELECTION. A sum over the 50 rows weighted by the one-hot weights is the term of the selected row: every other
    term is 0 · x = 0, and the selected one is 1 · x = x, on all of the extended reals. -/
theorem hot_sum (l : Ideal .f32) (T : Fin 50 → EReal) : ∑ k : Fin 50, hot k l * T k = T (bucket l) := by
  rw [Finset.sum_eq_single (bucket l)]
  · rw [hot_eq, if_pos rfl, one_mul]
  · intro k _ hk
    rw [hot_eq, if_neg hk, zero_mul]
  · intro h
    exact absurd (Finset.mem_univ _) h

/-! ## The reference's index arithmetic on the bucket word -/

/-- Subtracting the zero word changes nothing, and the wrap of negative indices (add 50 where the word is negative)
    does not fire on a word in [0, 49]. -/
theorem wrap_bucketWord (l : Ideal .f32) :
    Scalar.select (IntOp.cmpi .slt (IntOp.subi (bucketWord l) 0#32) 0#32)
      (IntOp.addi (IntOp.subi (bucketWord l) 0#32) 50#32) (IntOp.subi (bucketWord l) 0#32) = bucketWord l := by
  have hs : IntOp.subi (bucketWord l) 0#32 = bucketWord l := by
    unfold IntOp.subi; exact BitVec.sub_zero _
  rw [hs]
  have hc : IntOp.cmpi .slt (bucketWord l) 0#32 = 0#1 := by
    unfold IntOp.cmpi
    have hf : (bucketWord l).slt 0#32 = false := by
      have := (bucketWord_range l).1
      have h0 : (0#32 : BitVec 32).toInt = 0 := by decide
      simp only [BitVec.slt, h0, decide_eq_false_iff_not]
      omega
    simp only [hf]
    rfl
  rw [hc]
  unfold Scalar.select
  rw [if_neg (by decide)]

/-- A signed start index equal to the bucket word, clamped into the 50 rows, is the bucket. -/
theorem clamp_bucketWord (l : Ideal .f32) : min (bucketWord l).toInt.toNat (50 - 1) = (bucket l).val := by
  show min (bucket l).val (50 - 1) = (bucket l).val
  have := (bucket l).isLt
  omega

end Cert.Calibrate

end
-- ==== Proof.Calibrate.lean ====
/-
  THE CALIBRATED FEATURES. Row `r` of the features carries a label; the label's bucket `b` (Bucket.lean) names one row of
  each of four 50 × 128 statistics tables (old mean m₁, old variance v₁, new mean m₂, new variance v₂). With
  v₁⁺ = max(v₁, 0) and v₂⁺ = max(v₂, 0), entry (r, j) of the result is

      (x − m₁) · sqrt(min(10, max(0.1, v₂⁺ / max(v₁⁺, 1e-12)))) + m₂      where v₁⁺ > 0,        x elsewhere,

  x the feature at (r, j) and the statistics read at (b, j). This file states that function once, over the exact
  operations of the extended reals, as ONE function of the six arrays index by index: both programs are shown to compute
  it. The labels enter as a function of the row number, because one program holds them as a vector and the other as a
  one-column matrix.
-/
import proofs.«121002_j88038239634077_1_alg».proof.Proof.Bucket

noncomputable section

namespace Cert.Calibrate

open Idealize.ShloMosaic Idealize.ShloMosaic.ValueIdx

/-- One feature `x` recalibrated from the statistics (m₁, v₁) to (m₂, v₂); left as it is where v₁ is not positive. -/
def calib (x m1 v1 m2 v2 : Ideal .f32) : Ideal .f32 :=
  Scalar.select
    (FloatOps.cmpf .ogt (FloatOps.maximumf v1 (FloatOps.ofBits .f32 0x00000000#32)) (FloatOps.ofBits .f32 0x00000000#32))
    (FloatOps.addf
      (FloatOps.mulf (FloatOps.subf x m1)
        (FloatOps.sqrt
          (FloatOps.minimumf (FloatOps.ofBits .f32 0x41200000#32)
            (FloatOps.maximumf (FloatOps.ofBits .f32 0x3DCCCCCD#32)
              (FloatOps.divf (FloatOps.maximumf v2 (FloatOps.ofBits .f32 0x00000000#32))
                (FloatOps.maximumf (FloatOps.maximumf v1 (FloatOps.ofBits .f32 0x00000000#32))
                  (FloatOps.ofBits .f32 0x2B8CBCCC#32)))))))
      m2)
    x

/-- Entry (r, j) of the result: the feature there, calibrated by row `bucket (lab r)` of the four tables. -/
def entry (feat : (⟨2, ![1000000, 128]⟩ : Shape).Idx → Ideal .f32) (lab : Fin 1000000 → Ideal .f32)
    (m1 v1 m2 v2 : (⟨2, ![50, 128]⟩ : Shape).Idx → Ideal .f32) (r : Fin 1000000) (j : Fin 128) : Ideal .f32 :=
  calib (feat (ix2 r j)) (m1 (ix2 (bucket (lab r)) j)) (v1 (ix2 (bucket (lab r)) j)) (m2 (ix2 (bucket (lab r)) j))
    (v2 (ix2 (bucket (lab r)) j))

/-- The whole result array as one function of the feature array, the labels by row, and the four tables. -/
def G (feat : (⟨2, ![1000000, 128]⟩ : Shape).Idx → Ideal .f32) (lab : Fin 1000000 → Ideal .f32)
    (m1 v1 m2 v2 : (⟨2, ![50, 128]⟩ : Shape).Idx → Ideal .f32) : (⟨2, ![1000000, 128]⟩ : Shape).Idx → Ideal .f32 :=
  fun i => entry feat lab m1 v1 m2 v2 (i 0) (i 1)

theorem G_ix2 (feat : (⟨2, ![1000000, 128]⟩ : Shape).Idx → Ideal .f32) (lab : Fin 1000000 → Ideal .f32)
    (m1 v1 m2 v2 : (⟨2, ![50, 128]⟩ : Shape).Idx → Ideal .f32) (r : Fin 1000000) (j : Fin 128) :
    G feat lab m1 v1 m2 v2 (ix2 r j) = entry feat lab m1 v1 m2 v2 r j := rfl

/-- Equal arguments, equal calibrations. -/
theorem calib_congr {x x' a a' b b' c c' d d' : Ideal .f32} (hx : x = x') (ha : a = a') (hb : b = b') (hc : c = c')
    (hd : d = d') : calib x a b c d = calib x' a' b' c' d' := by
  subst hx ha hb hc hd; rfl

/-- Equal coordinates, equal indices. -/
theorem ix2_congr {n0 n1 : Nat} {a a' : Fin n0} {b b' : Fin n1} (ha : a = a') (hb : b = b') : ix2 a b = ix2 a' b' := by
  subst ha hb; rfl

/-- The result at any index `i`, in terms of `i`'s two coordinates. -/
theorem G_apply (feat : (⟨2, ![1000000, 128]⟩ : Shape).Idx → Ideal .f32) (lab : Fin 1000000 → Ideal .f32)
    (m1 v1 m2 v2 : (⟨2, ![50, 128]⟩ : Shape).Idx → Ideal .f32) (i : (⟨2, ![1000000, 128]⟩ : Shape).Idx) :
    G feat lab m1 v1 m2 v2 i
      = calib (feat i) (m1 (ix2 (bucket (lab (i 0))) (i 1))) (v1 (ix2 (bucket (lab (i 0))) (i 1)))
          (m2 (ix2 (bucket (lab (i 0))) (i 1))) (v2 (ix2 (bucket (lab (i 0))) (i 1))) := by
  unfold G entry
  exact calib_congr (congrArg feat (eq_ix2 i).symm) rfl rfl rfl rfl

end Cert.Calibrate

end
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.KernelBlock.lean ====
/-
  ONE GRID POINT OF THE KERNEL. The body reads a 4000 × 128 block of features, the 4000 × 1 column of their labels and
  the four whole 50 × 128 tables. From the labels it builds the 4000 × 50 one-hot selector — entry (p, k) is the one-hot
  weight of row k for label p — and multiplies it into each table: entry (p, q) of such a product is the sum over the 50
  rows k of weight(p, k) · T(k, q), which is T(bucket of label p, q), the selected row (Bucket.lean). The rest of the
  body is pointwise, so what it stores at (p, q) is the calibration of the feature at (p, q) by row `bucket` of the four
  tables at column q.
-/
import proofs.«121002_j88038239634077_1_alg».proof.Proof.Gen.KernelIdeal.Skeleton
import proofs.«121002_j88038239634077_1_alg».proof.Proof.Calibrate
import proofs.«121002_j88038239634077_1_alg».proof.Proof.LibPlainMatmul
import Idealize.ShloMosaic.Lib.Pipeline.Value
import Idealize.ShloMosaic.Lib.ValueLayout

open scoped BigOperators

noncomputable section

namespace Cert.KernelIdeal.Block

open Cert.KernelIdeal Cert.KernelIdeal.Gen Cert.Calibrate
open Idealize.ShloMosaic Idealize.ShloMosaic.TcCoe Idealize.ShloMosaic.ValueIdx

/-- A 4000 × 1 column broadcast along 50 columns reads, at (p, k), the column at row p. -/
theorem column_bcast {α : Type} (v : S4000x1.Idx → α) (h : S4000x1.Broadcasts S4000x50) (p : Fin 4000) (k : Fin 50) :
    broadcastTo S4000x50 v h (ix2 p k) = v (ix2 p (0 : Fin 1)) := by
  refine broadcastTo_apply v h (ix2 p k) (ix2 p (0 : Fin 1)) fun ax => ?_
  match ax with
  | ⟨0, _⟩ =>
    show p.val = if (4000 : Nat) = 1 then 0 else p.val
    rw [if_neg (by decide)]
  | ⟨1, _⟩ => rfl

/-- THE SELECTOR: entry (p, k) of the one-hot matrix built from the label column is the one-hot weight of row k for
    the label of row p. -/
theorem selector_apply (x1 : Vec Ideal S4000x1 .f32) (p : Fin 4000) (k : Fin 50) :
    k0_pay2 (F := Ideal) x1 (ix2 p k) = hot k (x1 (ix2 p (0 : Fin 1))) := by
  unfold k0_pay2
  show FloatOps.sitofp (F := Ideal) .f32
      ((IntOp.cmpi .eq (iota .tc S4000x50 32 [1] Facts₀.iota_S4000x50_d1_w32 (ix2 p k))
        (broadcastTo S4000x50 _ Facts₀.broadcasts_S4000x1_S4000x50 (ix2 p k))).setWidth 32) = _
  rw [iota_single_apply, column_bcast, shapeCast_self]
  rfl

/-- THE SELECTED ROW: the selector times a table, into the zero accumulator, reads at (p, q) the table's row
    `bucket (label p)` at column q. -/
theorem selected_row (x1 : Vec Ideal S4000x1 .f32) (T : FVec Ideal S50x128 .f32) (p : Fin 4000) (q : Fin 128) :
    matmul dot_S4000x50_S50x128_S4000x128_1_0_0_1_n_n (some .fp32) (k0_pay2 (F := Ideal) x1) T
      (constant S4000x128 .f32 0x00000000#32) (ix2 p q) = T (ix2 (bucket (x1 (ix2 p (0 : Fin 1)))) q) := by
  rw [PlainMatmul.matmul_zero_apply dot_S4000x50_S50x128_S4000x128_1_0_0_1_n_n
    Facts₀.dot_S4000x50_S50x128_S4000x128_1_0_0_1_n_n_wf rfl]
  simp only [selector_apply]
  exact hot_sum (x1 (ix2 p (0 : Fin 1))) (fun k => T (ix2 k q))

/-- WHAT THE BODY STORES at (p, q): the feature there calibrated by the selected rows of the four tables. The
    arguments are, in the body's window order, the features, the label column, and the tables m₁, v₁, m₂, v₂. -/
theorem stored_apply (x0 : Vec Ideal S4000x128 .f32) (x1 : Vec Ideal S4000x1 .f32) (x2 x3 x4 x5 : Vec Ideal S50x128 .f32)
    (p : Fin 4000) (q : Fin 128) :
    k0_pay1 (F := Ideal) (k0_pay3 x1 x2) (k0_pay4 x1 x4) (k0_pay5 x1 x3) (Scalar.ofBits .f32 0x41200000#32)
        (k0_pay6 x1 x3 x5) x0 (ix2 p q)
      = calib (x0 (ix2 p q)) (x2 (ix2 (bucket (x1 (ix2 p (0 : Fin 1)))) q)) (x3 (ix2 (bucket (x1 (ix2 p (0 : Fin 1)))) q))
          (x4 (ix2 (bucket (x1 (ix2 p (0 : Fin 1)))) q)) (x5 (ix2 (bucket (x1 (ix2 p (0 : Fin 1)))) q)) := by
  rw [← selected_row x1 x2 p q, ← selected_row x1 x3 p q, ← selected_row x1 x4 p q, ← selected_row x1 x5 p q]
  rfl

/-- The same at any index `j` of the block, in terms of `j`'s two coordinates. -/
theorem stored_at (x0 : Vec Ideal S4000x128 .f32) (x1 : Vec Ideal S4000x1 .f32) (x2 x3 x4 x5 : Vec Ideal S50x128 .f32)
    (j : S4000x128.Idx) :
    k0_pay1 (F := Ideal) (k0_pay3 x1 x2) (k0_pay4 x1 x4) (k0_pay5 x1 x3) (Scalar.ofBits .f32 0x41200000#32)
        (k0_pay6 x1 x3 x5) x0 j
      = calib (x0 j) (x2 (ix2 (bucket (x1 (ix2 (j 0) (0 : Fin 1)))) (j 1)))
          (x3 (ix2 (bucket (x1 (ix2 (j 0) (0 : Fin 1)))) (j 1))) (x4 (ix2 (bucket (x1 (ix2 (j 0) (0 : Fin 1)))) (j 1)))
          (x5 (ix2 (bucket (x1 (ix2 (j 0) (0 : Fin 1)))) (j 1))) := by
  have e : j = ix2 (j 0) (j 1) := eq_ix2 j
  exact (congrArg (k0_pay1 (F := Ideal) (k0_pay3 x1 x2) (k0_pay4 x1 x4) (k0_pay5 x1 x3) (Scalar.ofBits .f32 0x41200000#32)
      (k0_pay6 x1 x3 x5) x0) e).trans
    ((stored_apply x0 x1 x2 x3 x4 x5 (j 0) (j 1)).trans (calib_congr (congrArg x0 e.symm) rfl rfl rfl rfl))

end Cert.KernelIdeal.Block

end
-- ==== Proof.KernelValue.lean ====
/-
  FROM BLOCKS TO THE ARRAY. The grid has 250 points; point t works on rows 4000·t … 4000·t + 3999: its feature block and
  its label block are those rows of the feature array and of the label column, its output block the same rows of the
  result, and each table block is the whole table. So what point t writes back (KernelBlock.lean: the calibration of its
  feature block by the selected table rows) is exactly the rows 4000·t … of the specification's array `G`, and since the
  250 row ranges cover all 1000000 rows the result array after the run IS `G` of the arrays the region found — the
  arguments as launched, the label column being the label vector reshaped.
-/
import proofs.«121002_j88038239634077_1_alg».proof.Proof.Gen.KernelIdeal.Value
import proofs.«121002_j88038239634077_1_alg».proof.Proof.KernelBlock

noncomputable section

namespace Cert.KernelIdeal.ArrayValue

open Cert.KernelIdeal Cert.KernelIdeal.Gen Cert.KernelIdeal.Value Cert.KernelIdeal.Block Cert.Calibrate
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## The arrays the region finds -/

/-- The label column the region finds is the label vector reshaped: row r of the column is label r. -/
theorem label_column (c : Dev nD) (r : Fin 1000000) :
    (V m c main_v0 : S1000000x1.Idx → EReal) (ix2 r (0 : Fin 1))
      = (m ((c : Thread nD τ).loc main_arg1) : S1000000.Idx → EReal) (ix1 r) := by
  have e : (V m c main_v0 : S1000000x1.Idx → EReal)
      = shapeCast S1000000x1 (m ((c : Thread nD τ).loc main_arg1)) Facts₀.shapeCasts_S1000000_S1000000x1 := by
    dsimp only [Gen.V, Gen.hostOps0]; after_results; rfl
  rw [e]
  refine shapeCast_apply _ _ (ix2 r (0 : Fin 1)) (ix1 r) ?_
  rw [Shape.rowMajor_val_one, Shape.rowMajor_val_two]
  show r.val = r.val * 1 + 0
  omega

/-- The specification's array of what the region finds on core `c`. -/
abbrev found (c : Dev nD) : S1000000x128.Idx → EReal :=
  G (V m c main_arg0) (fun r => V m c main_v0 (ix2 r (0 : Fin 1))) (V m c main_arg2) (V m c main_arg3)
    (V m c main_arg4) (V m c main_arg5)

/-! ## The block indices, decided over the 250 points -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each input block is its array read where the output block lies -/

/-- The feature block at point t, at j, is the feature array at the output block's index for j. -/
theorem feature_block (c : Dev nD) (t : Fin cfg0.N) (j : S4000x128.Idx) :
    iblk m c 0 t j = V m c main_arg0 (((cfg0.win 6).blk t).view.emb j) := by
  obtain ⟨e00, e01, -, -, -, -, -, -, -, -, -, -, e60, e61⟩ := idx_facts t
  show V m c main_arg0 (((cfg0.win 0).blk t).view.emb j) = V m c main_arg0 (((cfg0.win 6).blk t).view.emb j)
  refine congrArg _ (funext fun a => Fin.ext ?_)
  match a with
  | ⟨0, _⟩ =>
    show win0_0.index t (0 : Fin 2) * 4000 + 1 * (j 0).val = win0_6.index t (0 : Fin 2) * 4000 + 1 * (j 0).val
    omega
  | ⟨1, _⟩ =>
    show win0_0.index t (1 : Fin 2) * 128 + 1 * (j 1).val = win0_6.index t (1 : Fin 2) * 128 + 1 * (j 1).val
    omega

/-- The label block at point t, at row p, is the label column at the output block's row for p. -/
theorem label_block (c : Dev nD) (t : Fin cfg0.N) (j : S4000x128.Idx) :
    iblk m c 1 t (ix2 (j 0) (0 : Fin 1)) = V m c main_v0 (ix2 ((((cfg0.win 6).blk t).view.emb j) 0) (0 : Fin 1)) := by
  obtain ⟨-, -, e10, e11, -, -, -, -, -, -, -, -, e60, e61⟩ := idx_facts t
  show V m c main_v0 (((cfg0.win 1).blk t).view.emb (ix2 (j 0) (0 : Fin 1))) = _
  refine congrArg _ (funext fun a => Fin.ext ?_)
  match a with
  | ⟨0, _⟩ =>
    show win0_1.index t (0 : Fin 2) * 4000 + 1 * (j 0).val = win0_6.index t (0 : Fin 2) * 4000 + 1 * (j 0).val
    omega
  | ⟨1, _⟩ =>
    show win0_1.index t (1 : Fin 2) * 1 + 1 * 0 = 0
    omega

/-- The output block's column for j is j's column. -/
theorem column_eq (t : Fin cfg0.N) (j : S4000x128.Idx) : (((cfg0.win 6).blk t).view.emb j) 1 = j 1 := by
  obtain ⟨-, -, -, -, -, -, -, -, -, -, -, -, e60, e61⟩ := idx_facts t
  apply Fin.ext
  show win0_6.index t (1 : Fin 2) * 128 + 1 * (j 1).val = (j 1).val
  omega

/-- Each table block is the whole table. -/
theorem table_block2 (c : Dev nD) (t : Fin cfg0.N) (y : S50x128.Idx) : iblk m c 2 t y = V m c main_arg2 y := by
  obtain ⟨-, -, -, -, e0, e1, -, -, -, -, -, -, -, -⟩ := idx_facts t
  show V m c main_arg2 (((cfg0.win 2).blk t).view.emb y) = V m c main_arg2 y
  refine congrArg _ (funext fun a => Fin.ext ?_)
  match a with
  | ⟨0, _⟩ => show win0_2.index t (0 : Fin 2) * 50 + 1 * (y 0).val = (y 0).val; omega
  | ⟨1, _⟩ => show win0_2.index t (1 : Fin 2) * 128 + 1 * (y 1).val = (y 1).val; omega

theorem table_block3 (c : Dev nD) (t : Fin cfg0.N) (y : S50x128.Idx) : iblk m c 3 t y = V m c main_arg3 y := by
  obtain ⟨-, -, -, -, -, -, e0, e1, -, -, -, -, -, -⟩ := idx_facts t
  show V m c main_arg3 (((cfg0.win 3).blk t).view.emb y) = V m c main_arg3 y
  refine congrArg _ (funext fun a => Fin.ext ?_)
  match a with
  | ⟨0, _⟩ => show win0_3.index t (0 : Fin 2) * 50 + 1 * (y 0).val = (y 0).val; omega
  | ⟨1, _⟩ => show win0_3.index t (1 : Fin 2) * 128 + 1 * (y 1).val = (y 1).val; omega

theorem table_block4 (c : Dev nD) (t : Fin cfg0.N) (y : S50x128.Idx) : iblk m c 4 t y = V m c main_arg4 y := by
  obtain ⟨-, -, -, -, -, -, -, -, e0, e1, -, -, -, -⟩ := idx_facts t
  show V m c main_arg4 (((cfg0.win 4).blk t).view.emb y) = V m c main_arg4 y
  refine congrArg _ (funext fun a => Fin.ext ?_)
  match a with
  | ⟨0, _⟩ => show win0_4.index t (0 : Fin 2) * 50 + 1 * (y 0).val = (y 0).val; omega
  | ⟨1, _⟩ => show win0_4.index t (1 : Fin 2) * 128 + 1 * (y 1).val = (y 1).val; omega

theorem table_block5 (c : Dev nD) (t : Fin cfg0.N) (y : S50x128.Idx) : iblk m c 5 t y = V m c main_arg5 y := by
  obtain ⟨-, -, -, -, -, -, -, -, -, -, e0, e1, -, -⟩ := idx_facts t
  show V m c main_arg5 (((cfg0.win 5).blk t).view.emb y) = V m c main_arg5 y
  refine congrArg _ (funext fun a => Fin.ext ?_)
  match a with
  | ⟨0, _⟩ => show win0_5.index t (0 : Fin 2) * 50 + 1 * (y 0).val = (y 0).val; omega
  | ⟨1, _⟩ => show win0_5.index t (1 : Fin 2) * 128 + 1 * (y 1).val = (y 1).val; omega

/-! ## What a point writes back -/

/-- WHAT POINT t WRITES BACK is block t of the specification's array of what the region found. -/
theorem flushed_eq (c : Dev nD) (t : Fin cfg0.N) :
    (dats m 0 c).flushed 6 t = ((cfg0.win 6).blk t).view.read (Elt Ideal) (found m c) := by
  rw [flushed6]
  unfold out0_6
  rw [View.canon_unit_zero zero_offsets]
  simp only [View.ld_unit_zero (S := S4000x128) zero_offsets, View.ld_unit_zero (S := S4000x1) zero_offsets,
    View.ld_unit_zero (S := S50x128) zero_offsets]
  funext j
  show k0_pay1 (F := Ideal) (k0_pay3 (iblk m c 1 t) (iblk m c 2 t)) (k0_pay4 (iblk m c 1 t) (iblk m c 4 t))
      (k0_pay5 (iblk m c 1 t) (iblk m c 3 t)) (Scalar.ofBits .f32 0x41200000#32)
      (k0_pay6 (iblk m c 1 t) (iblk m c 3 t) (iblk m c 5 t)) (iblk m c 0 t) j
    = G (V m c main_arg0) (fun r => V m c main_v0 (ix2 r (0 : Fin 1))) (V m c main_arg2) (V m c main_arg3)
        (V m c main_arg4) (V m c main_arg5) (((cfg0.win 6).blk t).view.emb j)
  rw [G_apply]
  refine (stored_at (iblk m c 0 t) (iblk m c 1 t) (iblk m c 2 t) (iblk m c 3 t) (iblk m c 4 t) (iblk m c 5 t) j).trans ?_
  have hb : bucket (iblk m c 1 t (ix2 (j 0) (0 : Fin 1)))
      = bucket (V m c main_v0 (ix2 ((((cfg0.win 6).blk t).view.emb j) 0) (0 : Fin 1))) :=
    congrArg bucket (label_block m c t j)
  have hq := (column_eq t j).symm
  exact calib_congr (feature_block m c t j)
    ((table_block2 m c t _).trans (congrArg _ (ix2_congr hb hq)))
    ((table_block3 m c t _).trans (congrArg _ (ix2_congr hb hq)))
    ((table_block4 m c t _).trans (congrArg _ (ix2_congr hb hq)))
    ((table_block5 m c t _).trans (congrArg _ (ix2_congr hb hq)))

/-! ## The cover -/

/-- An index of the result array is in point t's block iff each coordinate is in the block's range on its axis. -/
theorem mem_blk (t : Fin cfg0.N) (i : S1000000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v1).slice (win0_6.rect t)).set ↔ _
  rw [View.set_slice_whole, Rect.mem_set_unit]
  exact Iff.rfl

/-- Row r of the result lies in the block of point r / 4000. -/
theorem covered (i : S1000000x128.Idx) :
    ∃ t : Fin cfg0.N, (cfg0.win 6).flush t = true ∧ i ∈ ((cfg0.win 6).blk t).view.set := by
  have hi0 : (i 0).val < 1000000 := (i 0).isLt
  have hi1 : (i 1).val < 128 := (i 1).isLt
  have hlt : (i 0).val / 4000 < cfg0.N := by
    show _ < grid0.N
    rw [N_0]; omega
  obtain ⟨-, -, -, -, -, -, -, -, -, -, -, -, e60, e61⟩ := idx_facts ⟨(i 0).val / 4000, hlt⟩
  have e60' : win0_6.index ⟨(i 0).val / 4000, hlt⟩ (0 : Fin 2) = (i 0).val / 4000 := e60
  refine ⟨⟨(i 0).val / 4000, hlt⟩, flush0_6 _, ?_⟩
  rw [mem_blk]
  intro a
  match a with
  | ⟨0, _⟩ =>
    show win0_6.index ⟨(i 0).val / 4000, hlt⟩ (0 : Fin 2) * 4000 ≤ (i 0).val
      ∧ (i 0).val < win0_6.index ⟨(i 0).val / 4000, hlt⟩ (0 : Fin 2) * 4000 + 4000
    omega
  | ⟨1, _⟩ =>
    show win0_6.index ⟨(i 0).val / 4000, hlt⟩ (1 : Fin 2) * 128 ≤ (i 1).val
      ∧ (i 1).val < win0_6.index ⟨(i 0).val / 4000, hlt⟩ (1 : Fin 2) * 128 + 128
    omega

/-! ## The array after the run -/

/-- The result array after the run is the specification's array of what the region found, -/
theorem final (c : Dev nD) : (dats m 0 c).arrAt 6 cfg0.N = found m c :=
  (dats m 0 c).arrAt_eq_of_cover 6 (found m c) (fun t _ => flushed_eq m c t) covered

/-- which is the specification's array of the arguments as launched, the labels read off the label vector. -/
theorem found_eq (c : Dev nD) :
    found m c = G (m ((c : Thread nD τ).loc main_arg0)) (fun r => m ((c : Thread nD τ).loc main_arg1) (ix1 r))
      (m ((c : Thread nD τ).loc main_arg2)) (m ((c : Thread nD τ).loc main_arg3)) (m ((c : Thread nD τ).loc main_arg4))
      (m ((c : Thread nD τ).loc main_arg5)) := by
  have hl : (fun r : Fin 1000000 => (V m c main_v0 : S1000000x1.Idx → EReal) (ix2 r (0 : Fin 1)))
      = fun r => (m ((c : Thread nD τ).loc main_arg1) : S1000000.Idx → EReal) (ix1 r) :=
    funext fun r => label_column m c r
  show G (V m c main_arg0) (fun r => V m c main_v0 (ix2 r (0 : Fin 1))) (V m c main_arg2) (V m c main_arg3)
    (V m c main_arg4) (V m c main_arg5) = _
  rw [hl, V_main_arg0, V_main_arg2, V_main_arg3, V_main_arg4, V_main_arg5]

/-- THE KERNEL'S RUN, READ: the result array ends at the specification's array of the arguments, which end unchanged. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0)) (fun r => m ((c : Thread nD τ).loc main_arg1) (ix1 r))
            (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1.trans (final m c)).trans (found_eq m c), (h c).2⟩) (run_blocks m ρ)

end Cert.KernelIdeal.ArrayValue

end
-- ==== Proof.LibGatherScatter.lean ====
/-
  ROWS READ AND ROWS SUMMED. A host `stablehlo.gather` whose start indices are an [n × 1] column and whose operand's
  leading axis is collapsed and start-indexed reads, at result row `e`, the operand's row named by start index `e` read
  signed and clamped into the operand (`gather_rows` for an [N × D] operand, `gather_row1` for an [N] one). A host float
  `stablehlo.scatter` with an `add` body over the same column of indices, its operand's leading axis inserted, adds to
  operand row `i` every update row whose start index read signed (not clamped) is `i` (`scatterAdd_rows`,
  `scatterAdd_row1`); an update row whose index is negative or past the end lands nowhere.
-/
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-! ## The row a start index names -/

/-- Row `e` of an [n,1] column of start indices, read signed and clamped into [0, N-1]. -/
def clampRow {n w : Nat} (N : Nat) (hN : 0 < N) (idx : IVec ⟨2, ![n, 1]⟩ w) (e : Fin n) : Fin N :=
  ⟨min (idx (ixP e)).toInt.toNat (N - 1), by omega⟩

/-- update row `e` lands on operand row `i`: its start index read SIGNED and NOT clamped is `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

/-- A word that reads signed as `i < N` is not negative and is not clamped. -/
theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

/-! ## Gathers of rows -/

/-- Every element of a one-element list is that element. -/
private theorem getElem_singleton_of_eq {β : Type} {l : List β} {b : β} (h : l = [b]) (k : Nat) (hk : k < l.length) :
    l[k] = b :=
  List.mem_singleton.1 (h ▸ List.getElem_mem hk)

/-- THE ROW TAKE. A `stablehlo.gather` of an [N × D] operand whose start indices are an [n × 1] column of row numbers:
    operand axis 0 collapsed and start-indexed, operand axis 1 whole (slice sizes [1, D]) and read by the result's
    offset axis 1, no batching axes, the index vector on axis 1. Result element (e, j) is the operand's element (r, j),
    r the start index of row `e` read signed and clamped into [0, N − 1]. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  -- the result's batch axes: the one axis that is not the offset axis
  have hbd : d.batchDims = [0] := by
    show Shape.kept _ d.offsetDims = [0]
    rw [hoff]
    show (List.finRange 2).filter (fun a : Fin 2 => a ∉ [(1 : Fin 2)]) = [0]
    decide
  -- axis 0: collapsed and start-indexed, the clamped start alone
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

/-- The library's rank-1 index at coordinate `p` is `ix1 p`. -/
theorem ofFin_eq_ix1 {n : Nat} (p : Fin n) : Shape.Idx.ofFin p = ix1 p := by
  funext a
  match a with
  | ⟨0, _⟩ => rfl

/-- The take over a rank-1 table (the library's `gather_take`), its indices written by coordinates: result position `e`
    reads the table at start index `e` read signed and clamped into [0, N − 1]. -/
theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

/-! ## Scatter-adds of rows -/

/-- An update index lands on operand index `r` exactly when, on every axis, its start plus its window coordinate is
    `r`'s coordinate (so is inside the operand there). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

/-- Rank 2, [n × 1] indices, operand axis 0 inserted and scattered to, update axis 1 the window: update index `u`
    lands on operand element (i, j) exactly when the start index of row `u 0` reads signed as `i` and `u`'s column is `j`. -/
theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  -- the updates' scatter axes: the one axis that is not the window axis
  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]
  -- axis 0: the start is the signed word of row `u 0`, the window coordinate 0
  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]
  -- axis 1: no start, the window coordinate `u`'s column
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

/-- THE ROW SCATTER-ADD. A float `stablehlo.scatter` with an `add` body of [n × D] updates into a [K × D] operand at an
    [n × 1] column of row numbers (operand axis 0 inserted and scattered to, update axis 1 the window, the index vector
    on axis 1): operand element (i, j) gains column `j` of every update row whose start index reads signed as `i`. -/
theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

/-- Rank 1, [n × 1] indices, the operand's one axis inserted and scattered to, no window axes: update index `u` lands on
    operand position `i` exactly when the start index of row `u 0` reads signed as `i`. -/
theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by
  -- the start is the signed word of row `u 0` (the updates' one axis is their scatter axis), the window coordinate 0
  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

/-- THE SCATTER-ADD OF A VECTOR. A float `stablehlo.scatter` with an `add` body of [n] updates into a [K] operand at an
    [n × 1] column of positions (the operand's one axis inserted and scattered to, no window axes, the index vector on
    axis 1): operand position `i` gains every update whose start index reads signed as `i`. -/
theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.RefValue.lean ====
/-
  THE REFERENCE COMPUTES THE CALIBRATED FEATURES. The reference clips and scales the label vector, converts it to words
  and clamps them to [0, 49]: at row e that is the bucket word of label e. Each of its four table look-ups first
  subtracts the zero word and wraps negative indices by 50 — neither changes a word in [0, 49] — then gathers rows of
  the table by the column of those words: result row e is the table's row `bucket (label e)`. What follows is the
  same pointwise calibration as in the specification, the host's quotient and square root being the exact ones.
-/
import proofs.«121002_j88038239634077_1_alg».proof.Proof.Gen.ReferenceIdeal.Read
import proofs.«121002_j88038239634077_1_alg».proof.Proof.Calibrate
import proofs.«121002_j88038239634077_1_alg».proof.Proof.LibGatherScatter

noncomputable section

namespace Cert.ReferenceIdeal.RefValue

open Cert.ReferenceIdeal Cert.ReferenceIdeal.Gen Cert.ReferenceIdeal.Read Cert.Calibrate
open Idealize.ShloMosaic Idealize.ShloMosaic.ValueIdx Idealize.ShloMosaic.RowOps Idealize.ShloMosaic.StableHlo.Predicate

/-- The clamped word of the label at position `i` is its bucket word. -/
theorem clamped_word (x1 : FVec Ideal S1000000 .f32) (i : S1000000.Idx) :
    val_main_v4 (F := Ideal) x1 i = bucketWord (x1 i) := by
  simp only [val_main_v4_apply, val_main_call1_v4_apply, val_main_call1_v3_apply, val_main_c_2_apply,
    val_main_call1_v2_apply, val_main_call1_v1_apply, val_main_call1_v0_apply, val_main_c_apply, val_main_v3_apply,
    val_main_v2_apply, val_main_v1_apply, val_main_cst_1_apply, val_main_v0_apply, val_main_call0_v4_apply,
    val_main_call0_v3_apply, val_main_cst_0_apply, val_main_call0_v2_apply, val_main_call0_v1_apply,
    val_main_call0_v0_apply, val_main_cst_apply]
  rfl

/-- The offset subtraction (of zero) leaves the bucket word. -/
theorem shifted_word (x1 : FVec Ideal S1000000 .f32) (i : S1000000.Idx) :
    val_main_v6 (F := Ideal) x1 i = IntOp.subi (bucketWord (x1 i)) 0#32 := by
  rw [val_main_v6_apply, clamped_word, val_main_v5_apply, val_main_c_3_apply]

/-- The position in the label vector that row `e` of an index column reads. -/
theorem column_pos (e : Fin 1000000) : idx_main_v12 (ixP e) = ix1 e := by
  funext a; match a with | ⟨0, _⟩ => rfl

/-! ## The four columns of start indices: each is the column of bucket words -/

theorem start_m1 (x1 : FVec Ideal S1000000 .f32) (e : Fin 1000000) :
    val_main_v12 (F := Ideal) x1 (ixP e) = bucketWord (x1 (ix1 e)) := by
  rw [val_main_v12_apply, column_pos]
  simp only [val_main_v11_apply, val_main_v8_apply, val_main_v10_apply, shifted_word, val_main_v7_apply,
    val_main_c_4_apply, val_main_v9_apply, val_main_c_5_apply]
  exact wrap_bucketWord _

theorem start_v1 (x1 : FVec Ideal S1000000 .f32) (e : Fin 1000000) :
    val_main_v19 (F := Ideal) x1 (ixP e) = bucketWord (x1 (ix1 e)) := by
  rw [val_main_v19_apply, show idx_main_v19 (ixP e) = ix1 e from column_pos e]
  simp only [val_main_v18_apply, val_main_v15_apply, val_main_v17_apply, shifted_word, val_main_v14_apply,
    val_main_c_6_apply, val_main_v16_apply, val_main_c_7_apply]
  exact wrap_bucketWord _

theorem start_m2 (x1 : FVec Ideal S1000000 .f32) (e : Fin 1000000) :
    val_main_v26 (F := Ideal) x1 (ixP e) = bucketWord (x1 (ix1 e)) := by
  rw [val_main_v26_apply, show idx_main_v26 (ixP e) = ix1 e from column_pos e]
  simp only [val_main_v25_apply, val_main_v22_apply, val_main_v24_apply, shifted_word, val_main_v21_apply,
    val_main_c_8_apply, val_main_v23_apply, val_main_c_9_apply]
  exact wrap_bucketWord _

theorem start_v2 (x1 : FVec Ideal S1000000 .f32) (e : Fin 1000000) :
    val_main_v33 (F := Ideal) x1 (ixP e) = bucketWord (x1 (ix1 e)) := by
  rw [val_main_v33_apply, show idx_main_v33 (ixP e) = ix1 e from column_pos e]
  simp only [val_main_v32_apply, val_main_v29_apply, val_main_v31_apply, shifted_word, val_main_v28_apply,
    val_main_c_10_apply, val_main_v30_apply, val_main_c_11_apply]
  exact wrap_bucketWord _

/-! ## The gathers: row e of each is the table's row `bucket (label e)` -/

/-- A gather of a 50-row table by a column whose row `e` is the bucket word of a label reads, at (e, j), the table at
    (bucket of that label, j): the word read signed is the row number, already inside the table. -/
theorem gather_bucket (T : FVec Ideal S50x128 .f32) (idx : IVec S1000000x1 32) (l : Ideal .f32) (e : Fin 1000000)
    (j : Fin 128) (h : idx (ixP e) = bucketWord l) :
    Host.gather gather_S50x128_S1000000x1_S1000000x128_1_0_n_n_0_1_1128 T idx (ix2 e j) = T (ix2 (bucket l) j) := by
  rw [gather_rows gather_S50x128_S1000000x1_S1000000x128_1_0_n_n_0_1_1128 rfl rfl rfl rfl rfl rfl T idx e j (by decide),
    clampRow_of_lands (by decide) idx e (bucket l) (by unfold lands; rw [h]; exact bucketWord_toInt l)]

theorem rows_m1 (x1 : FVec Ideal S1000000 .f32) (x2 : FVec Ideal S50x128 .f32) (e : Fin 1000000) (j : Fin 128) :
    val_main_v13 (F := Ideal) x1 x2 (ix2 e j) = x2 (ix2 (bucket (x1 (ix1 e))) j) :=
  gather_bucket x2 _ _ e j (start_m1 x1 e)

theorem rows_v1 (x1 : FVec Ideal S1000000 .f32) (x3 : FVec Ideal S50x128 .f32) (e : Fin 1000000) (j : Fin 128) :
    val_main_v20 (F := Ideal) x1 x3 (ix2 e j) = x3 (ix2 (bucket (x1 (ix1 e))) j) :=
  gather_bucket x3 _ _ e j (start_v1 x1 e)

theorem rows_m2 (x1 : FVec Ideal S1000000 .f32) (x4 : FVec Ideal S50x128 .f32) (e : Fin 1000000) (j : Fin 128) :
    val_main_v27 (F := Ideal) x1 x4 (ix2 e j) = x4 (ix2 (bucket (x1 (ix1 e))) j) :=
  gather_bucket x4 _ _ e j (start_m2 x1 e)

theorem rows_v2 (x1 : FVec Ideal S1000000 .f32) (x5 : FVec Ideal S50x128 .f32) (e : Fin 1000000) (j : Fin 128) :
    val_main_v34 (F := Ideal) x1 x5 (ix2 e j) = x5 (ix2 (bucket (x1 (ix1 e))) j) :=
  gather_bucket x5 _ _ e j (start_v2 x1 e)

/-! ## The result -/

/-- The reference's result, as a function of its six arguments, is the specification's array. -/
theorem result_eq (x0 : FVec Ideal S1000000x128 .f32) (x1 : FVec Ideal S1000000 .f32) (x2 x3 x4 x5 : FVec Ideal S50x128 .f32) :
    val_main_v49 (F := Ideal) x0 x1 x2 x3 x4 x5 = G x0 (fun r => x1 (ix1 r)) x2 x3 x4 x5 := by
  funext i
  obtain ⟨r, j, rfl⟩ : ∃ (r : Fin 1000000) (j : Fin 128), i = ix2 r j := ⟨i 0, i 1, eq_ix2 i⟩
  rw [G_ix2]
  simp only [val_main_v49_apply, val_main_v48_apply, val_main_v47_apply, val_main_cst_17_apply, val_main_v46_apply,
    val_main_v45_apply, val_main_v44_apply, val_main_v43_apply, val_main_v42_apply, val_main_call2_v4_apply,
    val_main_call2_v3_apply, val_main_cst_16_apply, val_main_call2_v2_apply, val_main_call2_v1_apply,
    val_main_call2_v0_apply, val_main_cst_15_apply, val_main_v41_apply, val_main_v40_apply, val_main_v39_apply,
    val_main_cst_14_apply, val_main_v38_apply, val_main_v37_apply, val_main_cst_13_apply, val_main_v36_apply,
    val_main_v35_apply, val_main_cst_12_apply, rows_m1, rows_v1, rows_m2, rows_v2]
  rfl

end Cert.ReferenceIdeal.RefValue

end
-- ==== Proof.lean ====
/-
  HISTOGRAM-BINNED CALIBRATION: the kernel against its reference. Each of the 1000000 feature rows carries a label; the
  label, clipped to [0, 1], scaled by 50, converted to an integer and clamped to [0, 49], names a bucket, that is one
  row of four 50 × 128 tables of statistics; the row is recalibrated from the old statistics to the new ones where the
  old variance is positive (Proof/Calibrate.lean states the function once, as one function `G` of the six arrays).
  The reference looks the bucket's rows up by gathers. The kernel cannot gather rows, so per block of 4000 rows it builds
  the 4000 × 50 one-hot matrix of the buckets and multiplies it into each table; over the extended reals such a product
  selects the bucket's row exactly (Proof/Bucket.lean: 0 · x = 0 and 1 · x = x for every x, so no finiteness is needed),
  and the 250 blocks tile the rows. So both programs end with `G` of their arguments: Proof/KernelBlock.lean and
  Proof/KernelValue.lean for the kernel (over its generated frame run), Proof/RefValue.lean for the reference (over its
  generated run, read one operation at a time). The three frames are the generated ones, and the idealization rewrote
  nothing, so the kernel at the ideal values is its own text.
-/
import proofs.«121002_j88038239634077_1_alg».proof.Defs
import proofs.«121002_j88038239634077_1_alg».proof.Proof.Gen.Kernel
import proofs.«121002_j88038239634077_1_alg».proof.Proof.Gen.Kernel.Skeleton
import proofs.«121002_j88038239634077_1_alg».proof.Proof.Gen.Kernel.Launch
import proofs.«121002_j88038239634077_1_alg».proof.Proof.Gen.Kernel.Points
import proofs.«121002_j88038239634077_1_alg».proof.Proof.Gen.Kernel.Frame
import proofs.«121002_j88038239634077_1_alg».proof.Proof.Gen.KernelIdeal
import proofs.«121002_j88038239634077_1_alg».proof.Proof.Gen.KernelIdeal.Skeleton
import proofs.«121002_j88038239634077_1_alg».proof.Proof.Gen.KernelIdeal.Launch
import proofs.«121002_j88038239634077_1_alg».proof.Proof.Gen.KernelIdeal.Points
import proofs.«121002_j88038239634077_1_alg».proof.Proof.Gen.KernelIdeal.Frame
import proofs.«121002_j88038239634077_1_alg».proof.Proof.Gen.ReferenceIdeal
import proofs.«121002_j88038239634077_1_alg».proof.Proof.Gen.Pre_finite_inputs
import proofs.«121002_j88038239634077_1_alg».proof.Proof.Gen.KernelIdeal.Value
import proofs.«121002_j88038239634077_1_alg».proof.Proof.Gen.ReferenceIdeal.Run
import proofs.«121002_j88038239634077_1_alg».proof.Proof.Gen.ReferenceIdeal.Read
import proofs.«121002_j88038239634077_1_alg».proof.Proof.KernelValue
import proofs.«121002_j88038239634077_1_alg».proof.Proof.RefValue
import Idealize.ShloMosaic.Adequacy
import Idealize.ShloMosaic.Init

noncomputable section

namespace Cert.Proof

open Idealize.ShloMosaic Idealize.SL.Sem Idealize.ShloMosaic.ValueIdx Cert.Calibrate

/-- The kernel as printed runs and keeps its arguments: its generated frame. -/
theorem frame_kernel : Cert.frame_Kernel := fun m ρ _ => Cert.Kernel.Gen.frame m ρ

/-- So does the kernel at the ideal values. -/
theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification's array `G` of their arguments, and the arguments agree. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v49_eq, Cert.ReferenceIdeal.RefValue.result_eq, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
